-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000 .f32) (main_arg2 : FVec F S64x64 .f32) (main_arg3 : FVec F S64 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S4000x64 : Shape := ⟨2, ![4000, 64]⟩

abbrev nBuf : Space → Nat
  | .hbm => 24
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v12) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDenseLayer.lean ====
/-
  A dense layer  Z = T·W + b  read at an index, at the exact instance (floats read as extended reals).

  T has m rows and k columns, W has k rows and n columns, b has n entries; entry (r, j) of Z is the inner product of
  row r of T with column j of W, plus entry j of b. Read here at an index: the product of an m×k by a k×n matrix on the
  matrix unit into a zero accumulator (the left operand contracted on its columns, the right one on its rows), and the
  tiled spelling of the layer over it (both operands narrowed to bf16, which is the identity on extended reals, the bias
  a single row broadcast down the rows). Row r of the tiled result reads row r of the left operand only, and the
  statements are for any number of rows, so they serve a block of rows and the whole matrix alike.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace DenseLayer

open Idealize.ShloMosaic Idealize.ShloMosaic.ValueIdx

variable {m k n : ℕ}

/-- Entry (r, j) of T·W + b: the inner product of row r of T with column j of W, plus entry j of b. -/
def affineAt (T : (⟨2, ![m, k]⟩ : Shape).Idx → EReal) (W : (⟨2, ![k, n]⟩ : Shape).Idx → EReal)
    (b : (⟨1, ![n]⟩ : Shape).Idx → EReal) (r : Fin m) (j : Fin n) : EReal :=
  (∑ c : Fin k, T (ix2 r c) * W (ix2 c j)) + b (ix1 j)

/-- The matrix T·W + b, entry by entry. -/
def affine (T : (⟨2, ![m, k]⟩ : Shape).Idx → EReal) (W : (⟨2, ![k, n]⟩ : Shape).Idx → EReal)
    (b : (⟨1, ![n]⟩ : Shape).Idx → EReal) : (⟨2, ![m, n]⟩ : Shape).Idx → EReal :=
  fun i => affineAt T W b (i 0) (i 1)

theorem affine_ix2 (T : (⟨2, ![m, k]⟩ : Shape).Idx → EReal) (W : (⟨2, ![k, n]⟩ : Shape).Idx → EReal)
    (b : (⟨1, ![n]⟩ : Shape).Idx → EReal) (r : Fin m) (j : Fin n) : affine T W b (ix2 r j) = affineAt T W b r j := rfl

/-- The product of an m×k by a k×n matrix on the matrix unit (left operand contracted on its columns, right operand on
    its rows), accumulated into the zero splat, at (a, b): the sum over the contracted coordinate of the products of
    the entries. `wf` is the well-formedness of the dimension numbers, which a program states. -/
theorem matmulPlain_apply {φ₁ φ₂ : FTy}
    (wf : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], wf⟩ : DotDims _ _ _) prec A B (constant ⟨2, ![m, n]⟩ .f32 0x00000000#32) (ix2 a b)
      = ∑ c : Fin k, A (ix2 a c) * B (ix2 c b) := by
  refine (Ideal.matmul_constant_zero_apply (⟨[1], [0], [0], [1], [], [], wf⟩ : DotDims _ _ _) prec A B (ix2 a b)).trans ?_
  rw [← Equiv.sum_comp (contrEquiv1 (⟨[1], [0], [0], [1], [], [], wf⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], wf⟩ : DotDims ⟨2, ![m, k]⟩ ⟨2, ![k, n]⟩ ⟨2, ![m, n]⟩) k rfl rfl c
  have l2 : (⟨[1], [0], [0], [1], [], [], wf⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], wf⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The tiled layer at (r, j): the operands narrowed to bf16 (the identity here), the product accumulated into zero, plus
    the one bias row v broadcast down the rows. It reads row r of x, column j of w and entry (0, j) of v. -/
theorem tile_apply (wf : DotDims.WF ⟨2, ![m, k]⟩ ⟨2, ![k, n]⟩ ⟨2, ![m, n]⟩ [1] [0] [0] [1] [] [])
    (h16 : FTy.bf16.bits < FTy.f32.bits)
    (hx : (⟨2, ![m, k]⟩ : Shape).ShapeCasts ⟨2, ![m, k]⟩) (hv : (⟨2, ![1, n]⟩ : Shape).ShapeCasts ⟨2, ![1, n]⟩)
    (hbc : (⟨2, ![1, n]⟩ : Shape).Broadcasts ⟨2, ![m, n]⟩)
    (x : FVec Ideal ⟨2, ![m, k]⟩ .f32) (w : FVec Ideal ⟨2, ![k, n]⟩ .f32) (v : FVec Ideal ⟨2, ![1, n]⟩ .f32)
    (r : Fin m) (j : Fin n) :
    addf (matmul (⟨[1], [0], [0], [1], [], [], wf⟩ : DotDims _ _ _) none
          (truncf .bf16 (shapeCast ⟨2, ![m, k]⟩ x hx) h16) (truncf .bf16 w h16) (constant ⟨2, ![m, n]⟩ .f32 0x00000000#32))
        (broadcastTo ⟨2, ![m, n]⟩ (shapeCast ⟨2, ![1, n]⟩ v hv) hbc) (ix2 r j)
      = (∑ c : Fin k, x (ix2 r c) * w (ix2 c j)) + v (ix2 (0 : Fin 1) j) := by
  rw [addf_apply, matmulPlain_apply, broadcastTo_1b_ab_apply, shapeCast_self, shapeCast_self]
  rfl

end DenseLayer

end
-- ==== Proof.Tile.lean ====
/-
  What one grid step of the dense stage stores, entry by entry, at the exact instance.

  A step loads a block of 4000 rows of the aggregated features, the whole 64×64 weight matrix and the bias as one row
  of 64 entries, and stores  block · W + bias row. Entry (r, j) of the stored block is therefore the inner product of
  row r of the loaded block with column j of W, plus entry (0, j) of the bias row.
-/
import proofs.«133300_j56693568307362_1_alg».proof.Proof.Gen.KernelIdeal.Skeleton
import proofs.«133300_j56693568307362_1_alg».proof.Proof.LibDenseLayer

noncomputable section

open scoped BigOperators

namespace Cert.KernelIdeal.Dense

open Cert.KernelIdeal Cert.KernelIdeal.Gen Idealize.ShloMosaic Idealize.ShloMosaic.ValueIdx

/-- The stored block at (r, j): row r of the loaded rows against column j of the weights, plus the bias row's entry j. -/
theorem stored_apply (x : FVec Ideal S4000x64 .f32) (w : FVec Ideal S64x64 .f32) (v : FVec Ideal S1x64 .f32)
    (r : Fin 4000) (j : Fin 64) :
    k0_pay1 (F := Ideal) x w v (ix2 r j) = (∑ c : Fin 64, x (ix2 r c) * w (ix2 c j)) + v (ix2 (0 : Fin 1) j) := by
  unfold k0_pay1
  exact DenseLayer.tile_apply _ _ _ _ _ x w v r j

end Cert.KernelIdeal.Dense

end
-- ==== Proof.Blocks.lean ====
/-
  One grid step of the dense stage writes its 4000 rows of  T·W + b, and the 25 steps' blocks cover the result array.

  Step t stages rows 4000·t … 4000·t + 3999 of the first operand T, the whole of W, and the one bias row, and writes rows
  4000·t … 4000·t + 3999 of the result. Entry (r, j) of the block it stores is the inner product of row r of the staged
  rows — row 4000·t + r of T — with column j of W, plus entry j of the bias row: entry (4000·t + r, j) of T·W + b. Row R of
  the result lies in the block of step R / 4000.
-/
import proofs.«133300_j56693568307362_1_alg».proof.Proof.Gen.KernelIdeal.Value
import proofs.«133300_j56693568307362_1_alg».proof.Proof.Tile

noncomputable section

open scoped BigOperators

namespace Cert.KernelIdeal.Dense

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

/-- The block indices over the grid: the feature and result windows walk down the rows one block a step, the weight
    and bias windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the rows staged at step t is row 4000·t + r of the array. -/
theorem read_rows (X : FVec Ideal S100000x64 .f32) (t : Fin cfg0.N) (r : Fin 4000) (k : Fin 64) (R : Fin 100000)
    (hR : R.val = t.val * 4000 + r.val) :
    (((cfg0.win 0).blk t).view.read (Elt Ideal) X : FVec Ideal S4000x64 .f32) (ix2 r k) = X (ix2 R k) := by
  obtain ⟨e0, e1, -⟩ := idx_facts t
  show X (((cfg0.win 0).blk t).view.emb (ix2 r k)) = X (ix2 R k)
  refine congrArg X (funext fun a => Fin.ext ?_)
  match a with
  | ⟨0, _⟩ => show win0_0.index t (0 : Fin 2) * 4000 + 1 * r.val = R.val; rw [e0, hR]; omega
  | ⟨1, _⟩ => show win0_0.index t (1 : Fin 2) * 64 + 1 * k.val = k.val; rw [e1]; omega

/-- Every step stages the whole weight matrix. -/
theorem read_weights (X : FVec Ideal S64x64 .f32) (t : Fin cfg0.N) (k j : Fin 64) :
    (((cfg0.win 1).blk t).view.read (Elt Ideal) X : FVec Ideal S64x64 .f32) (ix2 k j) = X (ix2 k j) := by
  obtain ⟨-, -, e0, e1, -⟩ := idx_facts t
  show X (((cfg0.win 1).blk t).view.emb (ix2 k j)) = X (ix2 k j)
  refine congrArg X (funext fun a => Fin.ext ?_)
  match a with
  | ⟨0, _⟩ => show win0_1.index t (0 : Fin 2) * 64 + 1 * k.val = k.val; rw [e0]; omega
  | ⟨1, _⟩ => show win0_1.index t (1 : Fin 2) * 64 + 1 * j.val = j.val; rw [e1]; omega

/-- Every step stages the one bias row. -/
theorem read_biasRow (X : FVec Ideal S1x64 .f32) (t : Fin cfg0.N) (j : Fin 64) :
    (((cfg0.win 2).blk t).view.read (Elt Ideal) X : FVec Ideal S1x64 .f32) (ix2 (0 : Fin 1) j) = X (ix2 (0 : Fin 1) j) := by
  obtain ⟨-, -, -, -, e0, e1, -⟩ := idx_facts t
  show X (((cfg0.win 2).blk t).view.emb (ix2 (0 : Fin 1) j)) = X (ix2 (0 : Fin 1) j)
  refine congrArg X (funext fun a => Fin.ext ?_)
  match a with
  | ⟨0, _⟩ => show win0_2.index t (0 : Fin 2) * 1 + 1 * 0 = 0; rw [e0]
  | ⟨1, _⟩ => show win0_2.index t (1 : Fin 2) * 64 + 1 * j.val = j.val; rw [e1]; omega

/-- THE STEP: for any operand arrays T, W and bias row v whose entry (0, j) is b's entry j, what step t stores from
    its staged blocks is the step's block of T·W + b. -/
theorem stored_eq (T : FVec Ideal S100000x64 .f32) (W : FVec Ideal S64x64 .f32) (v : FVec Ideal S1x64 .f32)
    (b : FVec Ideal S64 .f32) (hv : ∀ j : Fin 64, v (ix2 (0 : Fin 1) j) = b (ix1 j)) (t : Fin cfg0.N) :
    (cfg0.win 3).cut (grid0.coords t)
        (k0_pay1 (F := Ideal) (((cfg0.win 0).blk t).view.read (Elt Ideal) T) (((cfg0.win 1).blk t).view.read (Elt Ideal) W)
          (((cfg0.win 2).blk t).view.read (Elt Ideal) v))
      = ((cfg0.win 3).blk t).view.read (Elt Ideal) (DenseLayer.affine T W b) := by
  obtain ⟨-, -, -, -, -, -, e0, e1⟩ := idx_facts t
  have ht : t.val < 25 := lt_of_lt_of_eq t.isLt (show cfg0.N = 25 from N_0)
  funext y
  have hy0 : (y 0).val < 4000 := (y 0).isLt
  have hy1 : (y 1).val < 64 := (y 1).isLt
  have hR : t.val * 4000 + (y 0).val < 100000 := by omega
  have hx : (cfg0.win 3).xinj (grid0.coords t) y = ix2 (⟨(y 0).val, hy0⟩ : Fin 4000) (⟨(y 1).val, hy1⟩ : Fin 64) :=
    funext fun a => Fin.ext (by
      match a with
      | ⟨0, _⟩ => rfl
      | ⟨1, _⟩ => rfl)
  have he : ((cfg0.win 3).blk t).view.emb y = ix2 (⟨t.val * 4000 + (y 0).val, hR⟩ : Fin 100000) (⟨(y 1).val, hy1⟩ : Fin 64) :=
    funext fun a => Fin.ext (by
      match a with
      | ⟨0, _⟩ => show win0_3.index t (0 : Fin 2) * 4000 + 1 * (y 0).val = t.val * 4000 + (y 0).val; rw [e0]; omega
      | ⟨1, _⟩ => show win0_3.index t (1 : Fin 2) * 64 + 1 * (y 1).val = (y 1).val; rw [e1]; omega)
  show k0_pay1 (F := Ideal) _ _ _ ((cfg0.win 3).xinj (grid0.coords t) y) = DenseLayer.affine T W b (((cfg0.win 3).blk t).view.emb y)
  rw [hx, he, stored_apply, DenseLayer.affine_ix2]
  unfold DenseLayer.affineAt
  refine congrArg₂ (· + ·) (Finset.sum_congr rfl fun k _ => ?_) ?_
  · rw [read_rows T t (⟨(y 0).val, hy0⟩ : Fin 4000) k (⟨t.val * 4000 + (y 0).val, hR⟩ : Fin 100000) rfl, read_weights]
  · rw [read_biasRow, hv]

/-- An index of the result array is in step t's block iff each coordinate is in the block's range on its axis. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v14).slice (win0_3.rect t)).set ↔ _
  rw [View.set_slice_whole, Rect.mem_set_unit]
  exact Iff.rfl

/-- Row R of the result lies in the block written at step R / 4000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  have hq : (i 0).val / 4000 < cfg0.N := by rw [hN]; omega
  obtain ⟨-, -, -, -, -, -, e0, e1⟩ := idx_facts ⟨(i 0).val / 4000, hq⟩
  refine ⟨⟨(i 0).val / 4000, hq⟩, flush0_3 _, ?_⟩
  rw [mem_blk]
  intro a
  match a with
  | ⟨0, _⟩ =>
    show win0_3.index ⟨(i 0).val / 4000, hq⟩ (0 : Fin 2) * 4000 ≤ (i 0).val ∧ (i 0).val < win0_3.index ⟨(i 0).val / 4000, hq⟩ (0 : Fin 2) * 4000 + 4000
    rw [e0]
    show (i 0).val / 4000 * 4000 ≤ (i 0).val ∧ (i 0).val < (i 0).val / 4000 * 4000 + 4000
    omega
  | ⟨1, _⟩ =>
    show win0_3.index ⟨(i 0).val / 4000, hq⟩ (1 : Fin 2) * 64 ≤ (i 1).val ∧ (i 1).val < win0_3.index ⟨(i 0).val / 4000, hq⟩ (1 : Fin 2) * 64 + 64
    rw [e1]
    omega

end Cert.KernelIdeal.Dense

end
-- ==== Proof.HostPrefix.lean ====
/-
  What the dense stage finds in its operand arrays: the host operations before the call, read back.

  Before the call the host gathers, for every edge e, row col[e] of X, scales it by vals[e], and adds it into row row[e]
  of a zero matrix; that matrix T is the call's first operand. The bias vector is recast as a single row of 64 entries;
  that row is the call's third operand.
-/
import proofs.«133300_j56693568307362_1_alg».proof.Proof.Gen.KernelIdeal.Frame
import Idealize.ShloMosaic.Lib.StableHlo.Run
import Idealize.ShloMosaic.Lib.ValueLayout

noncomputable section

namespace Cert.KernelIdeal.Dense

open Cert.KernelIdeal Cert.KernelIdeal.Gen Idealize.ShloMosaic Idealize.ShloMosaic.TcCoe
open Idealize.ShloMosaic.ValueIdx Idealize.SL.Sem Idealize.ShloMosaic.StableHlo

/-- The aggregated features T: starting from zero, for every edge e the row col[e] of X (an index below zero moved up
    once by the number of rows, as the host's gather spells it), scaled by vals[e], is added into row row[e]. -/
def aggregate {F : FTy → Type} [FloatOps F] (X : (⟨S100000x64, .f32⟩ : BufTy).Contents (Elt F)) (vals : (⟨S1600000, .f32⟩ : BufTy).Contents (Elt F))
    (row col : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (Host.gather gather_S100000x64_S1600000x1_S1600000x64_1_0_n_n_0_1_164 X
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x64 ![0, 1] bcast_S1600000x1_S1600000x64_0_1
        (broadcastInDim S1600000x1 ![0] bcast_S1600000_S1600000x1_0 vals)))

variable (m : (ℓ : Loc nD τ sig) → Buf (Elt Ideal) ℓ)

/-- The call's first operand is the aggregated features of the four arguments X, vals, row, col. -/
theorem feats_eq (c : Dev nD) :
    (V m c main_v12 : S100000x64.Idx → EReal)
      = aggregate (F := Ideal) (m ((c : Thread nD τ).loc main_arg0)) (m ((c : Thread nD τ).loc main_arg1))
          (m ((c : Thread nD τ).loc main_arg4)) (m ((c : Thread nD τ).loc main_arg5)) := by
  dsimp only [Gen.V, Gen.hostOps0]
  after_results
  rfl

/-- The call's third operand is the bias vector recast as one row. -/
theorem biasRow_eq (c : Dev nD) :
    (V m c main_v13 : S1x64.Idx → EReal)
      = shapeCast S1x64 (m ((c : Thread nD τ).loc main_arg3) : S64.Idx → EReal) shapeCasts_S64_S1x64 := by
  dsimp only [Gen.V, Gen.hostOps0]
  after_results
  rfl

/-- Entry (0, j) of that row is entry j of the bias vector. -/
theorem biasRow_apply (c : Dev nD) (j : Fin 64) :
    (V m c main_v13 : S1x64.Idx → EReal) (ix2 (0 : Fin 1) j) = (m ((c : Thread nD τ).loc main_arg3) : S64.Idx → EReal) (ix1 j) := by
  rw [biasRow_eq]
  exact shapeCast_a_1a_apply _ _ _ _

end Cert.KernelIdeal.Dense

end
-- ==== Proof.KernelRun.lean ====
/-
  The kernel's run, read: the result array ends at  T·W + b  with T the aggregated features of the arguments.

  Each of the 25 grid steps writes its rows of T·W + b (Blocks.lean), the blocks cover the array, and the operands the
  call finds are the aggregated features, the weights as launched, and the bias as one row (HostPrefix.lean).
-/
import proofs.«133300_j56693568307362_1_alg».proof.Proof.Blocks
import proofs.«133300_j56693568307362_1_alg».proof.Proof.HostPrefix

noncomputable section

namespace Cert.KernelIdeal.Dense

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the result array ends holding, as a function of the six arguments. -/
abbrev result (c : Dev nD) : FVec Ideal S100000x64 .f32 :=
  DenseLayer.affine
    (aggregate (F := Ideal) (m ((c : Thread nD τ).loc main_arg0)) (m ((c : Thread nD τ).loc main_arg1))
      (m ((c : Thread nD τ).loc main_arg4)) (m ((c : Thread nD τ).loc main_arg5)))
    (m ((c : Thread nD τ).loc main_arg2)) (m ((c : Thread nD τ).loc main_arg3))

/-- The same over the operand arrays as the call finds them. -/
abbrev found (c : Dev nD) : FVec Ideal S100000x64 .f32 :=
  DenseLayer.affine (V m c main_v12) (V m c main_arg2) (m ((c : Thread nD τ).loc main_arg3))

/-- What step t writes back is its block of T·W + b. -/
theorem flushed_eq (c : Dev nD) (t : Fin cfg0.N) :
    (dats m 0 c).flushed 3 t = ((cfg0.win 3).blk t).view.read (Elt Ideal) (found m c) := by
  rw [Value.flushed3]
  unfold out0_3
  rw [View.canon_unit_zero hz]
  simp only [View.ld_unit_zero (S := S4000x64) hz, View.ld_unit_zero (S := S64x64) hz, View.ld_unit_zero (S := S1x64) hz]
  exact stored_eq (V m c main_v12) (V m c main_arg2) (V m c main_v13) (m ((c : Thread nD τ).loc main_arg3))
    (biasRow_apply m c) t

/-- So the result array ends at T·W + b. -/
theorem final (c : Dev nD) : (dats m 0 c).arrAt 3 cfg0.N = result m c :=
  ((dats m 0 c).arrAt_eq_of_cover 3 (found m c) (fun t _ => flushed_eq m c t) covered).trans (by
    show DenseLayer.affine (V m c main_v12) (V m c main_arg2) _ = _
    rw [V_main_arg2 m c, feats_eq m c])

/-- The run, read: the result array at T·W + b, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Dense

end
-- ==== Proof.Reference.lean ====
/-
  The reference's result, entry by entry, is the dense layer of the aggregated features.

  The reference computes  temp @ W + b  with the host's matrix product and the bias broadcast down the rows. Entry (r, j)
  is the sum over k of temp[r, k] · W[k, j], plus b[j]: the dense layer DenseLayer.affine of the aggregated features,
  the weights and the bias.
-/
import proofs.«133300_j56693568307362_1_alg».proof.Proof.Gen.ReferenceIdeal.Read
import proofs.«133300_j56693568307362_1_alg».proof.Proof.LibDenseLayer

noncomputable section

open scoped BigOperators

namespace Cert.ReferenceIdeal.Dense

open Cert.ReferenceIdeal Cert.ReferenceIdeal.Read Idealize.ShloMosaic Idealize.ShloMosaic.ValueIdx

/-- The result stage is T·W + b over the stage T that holds the aggregated features. -/
theorem result_eq (X : (⟨S100000x64, .f32⟩ : BufTy).Contents (Elt Ideal)) (vals : (⟨S1600000, .f32⟩ : BufTy).Contents (Elt Ideal))
    (W : (⟨S64x64, .f32⟩ : BufTy).Contents (Elt Ideal)) (b : (⟨S64, .f32⟩ : BufTy).Contents (Elt Ideal))
    (row col : (⟨S1600000, .i32⟩ : BufTy).Contents (Elt Ideal)) :
    val_main_v16 (F := Ideal) X vals W b row col
      = DenseLayer.affine (val_main_v12 (F := Ideal) X vals row col) W b := by
  funext i
  obtain ⟨r, j, rfl⟩ : ∃ (r : Fin 100000) (j : Fin 64), i = ix2 r j := ⟨i 0, i 1, eq_ix2 i⟩
  have hl : ∀ k : Fin 64, lidx_main_v13 (ix2 r j) k = ix2 r k := fun k => funext fun a => Fin.ext (by
    match a with
    | ⟨0, _⟩ => rfl
    | ⟨1, _⟩ => rfl)
  have hr : ∀ k : Fin 64, ridx_main_v13 (ix2 r j) k = ix2 k j := fun k => funext fun a => Fin.ext (by
    match a with
    | ⟨0, _⟩ => rfl
    | ⟨1, _⟩ => rfl)
  have hb : idx_main_v14 (idx_main_v15 (ix2 r j)) = ix1 j := funext fun a => Fin.ext (by
    match a with
    | ⟨0, _⟩ => rfl)
  rw [val_main_v16_apply, val_main_v13_apply, val_main_v15_apply, val_main_v14_apply, DenseLayer.affine_ix2]
  unfold DenseLayer.affineAt
  simp only [hl, hr, hb]
  rfl

end Cert.ReferenceIdeal.Dense

end
-- ==== Proof.lean ====
/-
  A graph-convolution layer: the sparse aggregation  T = Â·X  (for every edge e, row col[e] of X scaled by vals[e] is
  added into row row[e]) followed by the dense layer  Z = T·W + b.

  Both programs compute T with the same host operations. The kernel then computes the dense layer 4000 rows at a time:
  each grid step narrows its rows of T and the weights to bf16 (the identity on extended reals), multiplies them on the
  matrix unit into a zero accumulator and adds the bias row. The reference computes T·W with the host's matrix product
  and adds the bias broadcast down the rows. Read as extended reals, entry (r, j) of both results is
      Σ_k T[r, k] · W[k, j]  +  b[j],
  the same sum of the same products in the same order, so no law of arithmetic beyond reading the two spellings at an index is
  needed, and the finiteness of the inputs is not used.

  The three frames are the generated ones (the reference's is its generated run with the result dropped); the idealization
  rewrote nothing, so it is preserved trivially; the value claim sets the kernel's run (KernelRun.lean) beside the
  reference's generated run, read at an index (Reference.lean).
-/
import proofs.«133300_j56693568307362_1_alg».proof.Defs
import proofs.«133300_j56693568307362_1_alg».proof.Proof.Gen.Kernel
import proofs.«133300_j56693568307362_1_alg».proof.Proof.Gen.Kernel.Skeleton
import proofs.«133300_j56693568307362_1_alg».proof.Proof.Gen.Kernel.Launch
import proofs.«133300_j56693568307362_1_alg».proof.Proof.Gen.Kernel.Points
import proofs.«133300_j56693568307362_1_alg».proof.Proof.Gen.Kernel.Frame
import proofs.«133300_j56693568307362_1_alg».proof.Proof.Gen.KernelIdeal
import proofs.«133300_j56693568307362_1_alg».proof.Proof.Gen.KernelIdeal.Skeleton
import proofs.«133300_j56693568307362_1_alg».proof.Proof.Gen.KernelIdeal.Launch
import proofs.«133300_j56693568307362_1_alg».proof.Proof.Gen.KernelIdeal.Points
import proofs.«133300_j56693568307362_1_alg».proof.Proof.Gen.KernelIdeal.Frame
import proofs.«133300_j56693568307362_1_alg».proof.Proof.Gen.ReferenceIdeal
import proofs.«133300_j56693568307362_1_alg».proof.Proof.Gen.Pre_finite_inputs
import proofs.«133300_j56693568307362_1_alg».proof.Proof.Gen.KernelIdeal.Value
import proofs.«133300_j56693568307362_1_alg».proof.Proof.Gen.ReferenceIdeal.Run
import proofs.«133300_j56693568307362_1_alg».proof.Proof.Gen.ReferenceIdeal.Read
import proofs.«133300_j56693568307362_1_alg».proof.Proof.KernelRun
import proofs.«133300_j56693568307362_1_alg».proof.Proof.Reference
import Idealize.ShloMosaic.Adequacy
import Idealize.ShloMosaic.Init

noncomputable section

namespace Cert.Proof

open Idealize.ShloMosaic Idealize.SL.Sem

/-- The aggregated features are spelt by the same host operations in both programs. -/
theorem aggregate_same (X : (⟨Cert.KernelIdeal.S100000x64, .f32⟩ : BufTy).Contents (Elt Ideal))
    (vals : (⟨Cert.KernelIdeal.S1600000, .f32⟩ : BufTy).Contents (Elt Ideal))
    (row col : (⟨Cert.KernelIdeal.S1600000, .i32⟩ : BufTy).Contents (Elt Ideal)) :
    Cert.ReferenceIdeal.Read.val_main_v12 (F := Ideal) X vals row col
      = Cert.KernelIdeal.Dense.aggregate (F := Ideal) X vals row col := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both results are T·W + b of the same aggregated features T, weights W and bias b. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v16_eq, Cert.ReferenceIdeal.Dense.result_eq, aggregate_same, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
